-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg6 : IVec S500000 32) (main_v67 : IVec S_ 1) : IVec S_ 1 :=
  let main_c_26 : IVec S_ 32 := constantI S_ 32 4294867296#32
  let main_v68 : IVec S500000 32 := broadcastInDim S500000 ![] bcast_S_S500000 main_c_26
  let main_v69 : IVec S500000 1 := cmpi .sge main_arg6 main_v68
  let main_c_27 : IVec S_ 32 := constantI S_ 32 100000#32
  let main_v70 : IVec S500000 32 := broadcastInDim S500000 ![] bcast_S_S500000 main_c_27
  let main_v71 : IVec S500000 1 := cmpi .slt main_arg6 main_v70
  let main_v72 : IVec S500000 1 := andi main_v69 main_v71
  let main_c_28 : IVec S_ 1 := constantI S_ 1 1#1
  let main_v73 : IVec S_ 1 := (fun x v => Host.reduce IntOp.andi x v reducesTo_S500000_S_d0 h_S_) main_v72 main_c_28
  let main_v74 : IVec S_ 1 := andi main_v67 main_v73
  main_v74

def fn_part3 {F : FTy → Type} [FloatOps F] (main_arg2 : IVec S500000 32) (main_arg4 : IVec S500000 32) (main_arg6 : IVec S500000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 4294867296#32
  let main_v54 : IVec S500000 32 := broadcastInDim S500000 ![] bcast_S_S500000 main_c_20
  let main_v55 : IVec S500000 1 := cmpi .sge main_arg2 main_v54
  let main_c_21 : IVec S_ 32 := constantI S_ 32 100000#32
  let main_v56 : IVec S500000 32 := broadcastInDim S500000 ![] bcast_S_S500000 main_c_21
  let main_v57 : IVec S500000 1 := cmpi .slt main_arg2 main_v56
  let main_v58 : IVec S500000 1 := andi main_v55 main_v57
  let main_c_22 : IVec S_ 1 := constantI S_ 1 1#1
  let main_v59 : IVec S_ 1 := (fun x v => Host.reduce IntOp.andi x v reducesTo_S500000_S_d0 h_S_) main_v58 main_c_22
  let main_v60 : IVec S_ 1 := andi main_v53 main_v59
  let main_c_23 : IVec S_ 32 := constantI S_ 32 4294867296#32
  let main_v61 : IVec S500000 32 := broadcastInDim S500000 ![] bcast_S_S500000 main_c_23
  let main_v62 : IVec S500000 1 := cmpi .sge main_arg4 main_v61
  let main_c_24 : IVec S_ 32 := constantI S_ 32 100000#32
  let main_v63 : IVec S500000 32 := broadcastInDim S500000 ![] bcast_S_S500000 main_c_24
  let main_v64 : IVec S500000 1 := cmpi .slt main_arg4 main_v63
  let main_v65 : IVec S500000 1 := andi main_v62 main_v64
  let main_c_25 : IVec S_ 1 := constantI S_ 1 1#1
  let main_v66 : IVec S_ 1 := (fun x v => Host.reduce IntOp.andi x v reducesTo_S500000_S_d0 h_S_) main_v65 main_c_25
  let main_v67 : IVec S_ 1 := andi main_v60 main_v66
  fn_part4 (F := F) main_arg6 main_v67

def fn_part2 {F : FTy → Type} [FloatOps F] (main_arg2 : IVec S500000 32) (main_arg4 : IVec S500000 32) (main_arg6 : IVec S500000 32) (main_arg13 : FVec F S128 .f32) (main_arg14 : FVec F S128x128 .f32) (main_arg15 : FVec F S128x128 .f32) (main_arg16 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg2 main_arg4 main_arg6 main_v48 main_v49 main_v50

def fn_part1 {F : FTy → Type} [FloatOps F] (main_arg2 : IVec S500000 32) (main_arg4 : IVec S500000 32) (main_arg6 : IVec S500000 32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg4 main_arg6 main_arg13 main_arg14 main_arg15 main_arg16 main_v33

def fn {F : FTy → Type} [FloatOps F] (main_arg0 : FVec F S100000x128 .f32) (main_arg1 : FVec F S100000x128 .f32) (main_arg2 : IVec S500000 32) (main_arg3 : IVec S500000 32) (main_arg4 : IVec S500000 32) (main_arg5 : IVec S500000 32) (main_arg6 : IVec S500000 32) (main_arg7 : IVec S500000 32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg4 main_arg6 main_arg10 main_arg11 main_arg12 main_arg13 main_arg14 main_arg15 main_arg16 main_v13 main_v16
-- ==== Kernel.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 130
  | .vmem => 27
  | .smem => 0
  | _ => 0

abbrev hbmTy0_0 (i : Nat) : BufTy := match i % 128 with
  | 0 => ⟨S100000x128, .f32⟩
  | 1 => ⟨S100000x128, .f32⟩
  | 2 => ⟨S500000, .i32⟩
  | 3 => ⟨S500000, .i32⟩
  | 4 => ⟨S500000, .i32⟩
  | 5 => ⟨S500000, .i32⟩
  | 6 => ⟨S500000, .i32⟩
  | 7 => ⟨S500000, .i32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S1, .i32⟩
  | 26 => ⟨S_, .i32⟩
  | 27 => ⟨S500000x1, .i32⟩
  | 28 => ⟨S500000x1, .i1⟩
  | 29 => ⟨S1x1, .i32⟩
  | 30 => ⟨S500000x1, .i32⟩
  | 31 => ⟨S500000x1, .i1⟩
  | 32 => ⟨S500000x1, .i1⟩
  | 33 => ⟨S_, .i1⟩
  | 34 => ⟨S500000, .i1⟩
  | 35 => ⟨S500000x128, .f32⟩
  | 36 => ⟨S500000x128, .i1⟩
  | 37 => ⟨S_, .f32⟩
  | 38 => ⟨S500000x128, .f32⟩
  | 39 => ⟨S500000x128, .f32⟩
  | 40 => ⟨S_, .f32⟩
  | 41 => ⟨S100000x128, .f32⟩
  | 42 => ⟨S500000x1, .i32⟩
  | 43 => ⟨S100000x128, .f32⟩
  | 44 => ⟨S_, .f32⟩
  | 45 => ⟨S500000, .f32⟩
  | 46 => ⟨S_, .f32⟩
  | 47 => ⟨S100000, .f32⟩
  | 48 => ⟨S500000x1, .i32⟩
  | 49 => ⟨S100000, .f32⟩
  | 50 => ⟨S100000x1, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S1, .i32⟩
  | 60 => ⟨S_, .i32⟩
  | 61 => ⟨S500000x1, .i32⟩
  | 62 => ⟨S500000x1, .i1⟩
  | 63 => ⟨S1x1, .i32⟩
  | 64 => ⟨S500000x1, .i32⟩
  | 65 => ⟨S500000x1, .i1⟩
  | 66 => ⟨S500000x1, .i1⟩
  | 67 => ⟨S_, .i1⟩
  | 68 => ⟨S500000, .i1⟩
  | 69 => ⟨S500000x128, .f32⟩
  | 70 => ⟨S500000x128, .i1⟩
  | 71 => ⟨S_, .f32⟩
  | 72 => ⟨S500000x128, .f32⟩
  | 73 => ⟨S500000x128, .f32⟩
  | 74 => ⟨S_, .f32⟩
  | 75 => ⟨S100000x128, .f32⟩
  | 76 => ⟨S500000x1, .i32⟩
  | 77 => ⟨S100000x128, .f32⟩
  | 78 => ⟨S_, .f32⟩
  | 79 => ⟨S500000, .f32⟩
  | 80 => ⟨S_, .f32⟩
  | 81 => ⟨S100000, .f32⟩
  | 82 => ⟨S500000x1, .i32⟩
  | 83 => ⟨S100000, .f32⟩
  | 84 => ⟨S100000x1, .f32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S1, .i32⟩
  | 94 => ⟨S_, .i32⟩
  | 95 => ⟨S500000x1, .i32⟩
  | 96 => ⟨S500000x1, .i1⟩
  | 97 => ⟨S1x1, .i32⟩
  | 98 => ⟨S500000x1, .i32⟩
  | 99 => ⟨S500000x1, .i1⟩
  | 100 => ⟨S500000x1, .i1⟩
  | 101 => ⟨S_, .i1⟩
  | 102 => ⟨S500000, .i1⟩
  | 103 => ⟨S500000x128, .f32⟩
  | 104 => ⟨S500000x128, .i1⟩
  | 105 => ⟨S_, .f32⟩
  | 106 => ⟨S500000x128, .f32⟩
  | 107 => ⟨S500000x128, .f32⟩
  | 108 => ⟨S_, .f32⟩
  | 109 => ⟨S100000x128, .f32⟩
  | 110 => ⟨S500000x1, .i32⟩
  | 111 => ⟨S100000x128, .f32⟩
  | 112 => ⟨S_, .f32⟩
  | 113 => ⟨S500000, .f32⟩
  | 114 => ⟨S_, .f32⟩
  | 115 => ⟨S100000, .f32⟩
  | 116 => ⟨S500000x1, .i32⟩
  | 117 => ⟨S100000, .f32⟩
  | 118 => ⟨S100000x1, .f32⟩
  | 119 => ⟨S128x128, .f32⟩
  | 120 => ⟨S128x128, .bf16⟩
  | 121 => ⟨S128x128, .bf16⟩
  | 122 => ⟨S128x128, .bf16⟩
  | 123 => ⟨S128, .f32⟩
  | 124 => ⟨S1x128, .f32⟩
  | 125 => ⟨S100000x128, .f32⟩
  | 126 => ⟨S128x128, .bf16⟩
  | 127 => ⟨S128x128, .bf16⟩
  | _ => ⟨S100000x128, .f32⟩

abbrev hbmTy0_1 (i : Nat) : BufTy := match i % 128 with
  | 0 => ⟨S1x128, .f32⟩
  | 1 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_cst : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst_0 : Ref sig .tc := ⟨.hbm, 44, rfl⟩
abbrev main_v4 : Ref sig .tc := ⟨.hbm, 45, rfl⟩
abbrev main_cst_1 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v9 : Ref sig .tc := ⟨.hbm, 73, rfl⟩
abbrev main_cst_2 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_cst_3 : Ref sig .tc := ⟨.hbm, 78, rfl⟩
abbrev main_v13 : Ref sig .tc := ⟨.hbm, 79, rfl⟩
abbrev main_cst_4 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v18 : Ref sig .tc := ⟨.hbm, 107, rfl⟩
abbrev main_cst_5 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_cst_6 : Ref sig .tc := ⟨.hbm, 112, rfl⟩
abbrev main_v22 : Ref sig .tc := ⟨.hbm, 113, rfl⟩
abbrev main_cst_7 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S500000, .i32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .f32⟩
  | .hbm, ⟨27, _⟩ => ⟨S100000x128, .f32⟩
  | .hbm, ⟨28, _⟩ => ⟨S500000x1, .i32⟩
  | .hbm, ⟨29, _⟩ => ⟨S100000x128, .f32⟩
  | .hbm, ⟨30, _⟩ => ⟨S_, .f32⟩
  | .hbm, ⟨31, _⟩ => ⟨S500000, .f32⟩
  | .hbm, ⟨32, _⟩ => ⟨S_, .f32⟩
  | .hbm, ⟨33, _⟩ => ⟨S100000, .f32⟩
  | .hbm, ⟨34, _⟩ => ⟨S500000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x128, .f32⟩
  | .hbm, ⟨57, _⟩ => ⟨S_, .f32⟩
  | .hbm, ⟨58, _⟩ => ⟨S100000x128, .f32⟩
  | .hbm, ⟨59, _⟩ => ⟨S500000x1, .i32⟩
  | .hbm, ⟨60, _⟩ => ⟨S100000x128, .f32⟩
  | .hbm, ⟨61, _⟩ => ⟨S_, .f32⟩
  | .hbm, ⟨62, _⟩ => ⟨S500000, .f32⟩
  | .hbm, ⟨63, _⟩ => ⟨S_, .f32⟩
  | .hbm, ⟨64, _⟩ => ⟨S100000, .f32⟩
  | .hbm, ⟨65, _⟩ => ⟨S500000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S500000, .i32⟩
  | .hbm, ⟨81, _⟩ => ⟨S500000, .i1⟩
  | .hbm, ⟨82, _⟩ => ⟨S_, .i32⟩
  | .hbm, ⟨83, _⟩ => ⟨S500000, .i32⟩
  | .hbm, ⟨84, _⟩ => ⟨S500000, .i32⟩
  | .hbm, ⟨85, _⟩ => ⟨S500000, .i32⟩
  | .hbm, ⟨86, _⟩ => ⟨S500000x1, .i32⟩
  | .hbm, ⟨87, _⟩ => ⟨S500000x128, .f32⟩
  | .hbm, ⟨88, _⟩ => ⟨S_, .f32⟩
  | .hbm, ⟨89, _⟩ => ⟨S100000x128, .f32⟩
  | .hbm, ⟨90, _⟩ => ⟨S500000x1, .i32⟩
  | .hbm, ⟨91, _⟩ => ⟨S100000x128, .f32⟩
  | .hbm, ⟨92, _⟩ => ⟨S_, .f32⟩
  | .hbm, ⟨93, _⟩ => ⟨S500000, .f32⟩
  | .hbm, ⟨94, _⟩ => ⟨S_, .f32⟩
  | .hbm, ⟨95, _⟩ => ⟨S100000, .f32⟩
  | .hbm, ⟨96, _⟩ => ⟨S500000x1, .i32⟩
  | .hbm, ⟨97, _⟩ => ⟨S100000, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_c_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowIndex.lean ====
/-
  An index into a table of 100000 rows, counted from either end.

  A signed word `a` with `-100000 ≤ a < 100000` names a row: the non-negative ones directly, the negative ones after
  100000 is added. The normalised index `a'` then satisfies `0 ≤ a' ≤ 99999`, so a range test on it passes, and a
  conjunction of such tests over a whole array, reduced by `and`, is one.
-/
import Idealize.ShloMosaic.PureOps.Vector
import Idealize.ShloMosaic.Lib.ReduceAll

noncomputable section

namespace Cert.Sage

open Idealize.ShloMosaic

/-- The index counted from the front: 100000 added to a negative one. -/
def fromFront (a : BitVec 32) : BitVec 32 :=
  Scalar.select (IntOp.cmpi .slt a 0#32) (IntOp.addi a 100000#32) a

/-- For `-100000 ≤ a < 100000` the index counted from the front passes both range tests `0 ≤ ·` and `· ≤ 99999`. -/
theorem fromFront_in_range (a : BitVec 32) (h : (-100000 : Int) ≤ a.toInt ∧ a.toInt < 100000) :
    IntOp.andi (IntOp.cmpi .sge (fromFront a) 0#32) (IntOp.cmpi .sle (fromFront a) 99999#32) = 1#1 := by
  have h0 : (0#32 : BitVec 32).toInt = 0 := by decide
  have h2 : (99999#32 : BitVec 32).toInt = 99999 := by decide
  have key : (0 : Int) ≤ (fromFront a).toInt ∧ (fromFront a).toInt ≤ 99999 := by
    unfold fromFront Scalar.select IntOp.cmpi IntOp.addi
    by_cases hn : a.toInt < 0
    · have hs : a.slt 0#32 = true := by simp only [BitVec.slt, h0]; exact decide_eq_true hn
      rw [hs]
      simp only [BitVec.ofBool_true, if_true]
      have ht : (a + 100000#32).toInt = a.toInt + 100000 := by
        rw [BitVec.toInt_add]
        have h1 : (100000#32 : BitVec 32).toInt = 100000 := by decide
        rw [h1]
        have : (2 : Int) ^ 32 = 4294967296 := by decide
        rw [Int.bmod_def]; omega
      omega
    · have hs : a.slt 0#32 = false := by simp only [BitVec.slt, h0]; exact decide_eq_false hn
      rw [hs]
      simp only [BitVec.ofBool_false]
      have hne : ¬ ((0 : BitVec 1) = 1) := by decide
      simp only [hne, if_false]
      omega
  have e1 : IntOp.cmpi .sge (fromFront a) 0#32 = 1#1 := by
    simp only [IntOp.cmpi, BitVec.sle, h0]
    rw [decide_eq_true key.1]; rfl
  have e2 : IntOp.cmpi .sle (fromFront a) 99999#32 = 1#1 := by
    simp only [IntOp.cmpi, BitVec.sle, h2]
    rw [decide_eq_true key.2]; rfl
  rw [e1, e2]; decide

/-- A left fold of `and` from one over bits that are all one is one. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]; decide

/-- A reduction by `and`, from one, of a mask that is one everywhere is one everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  exact foldl_andi_one (fun n => x (s.rowMajor.symm n)) _ _ (hi _) (fun n _ => hx _)

end Cert.Sage

end
-- ==== Proof.HostSide.lean ====
/-
  What the two tiled passes find in their input arrays, as host terms of the launch memory.

  Before the first pass the program gathers source rows for each of the three edge lists, adds them into their
  destination rows and counts them, adds the two gene self-weight matrices and the two gene biases, and narrows the
  weights (a change of format: the identity on extended reals). A gathered row is kept only where the source index,
  counted from the front, lies in [0, 99999], and is a fill value elsewhere; for indices in [-100000, 100000) every row
  is kept, and the masked gather is the plain one.
-/
import proofs.«421555_j34385508171930_2_alg».proof.Proof.Gen.KernelIdeal.Frame
import proofs.«421555_j34385508171930_2_alg».proof.Proof.RowIndex
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

/-- Node features. -/
abbrev Rows := (⟨S100000x128, .f32⟩ : BufTy).Contents (Elt Ideal)
/-- One end of an edge list. -/
abbrev Ends := (⟨S500000, .i32⟩ : BufTy).Contents (Elt Ideal)

/-- The source indices counted from the front, as a column. -/
def colOf (src : Ends) : (⟨S500000x1, .i32⟩ : BufTy).Contents (Elt Ideal) :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 100000#32))) src)

/-- Per edge: does the source index, counted from the front, lie in [0, 99999]? -/
def inRows (src : Ends) : (⟨S500000, .i1⟩ : BufTy).Contents (Elt Ideal) :=
  Host.reduce IntOp.andi
    (andi (cmpi .sge (colOf src) (broadcastInDim S500000x1 ![] bcast_S_S500000x1 (constantI S_ 32 0#32)))
      (cmpi .sle (colOf src) (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

/-- The gathered source rows, a fill value where the index is out of range. -/
def takeRows (x : Rows) (src : Ends) : (⟨S500000x128, .f32⟩ : BufTy).Contents (Elt Ideal) :=
  select (broadcastInDim S500000x128 ![0] bcast_S500000_S500000x128_0 (inRows src))
    (Host.gather gather_S100000x128_S500000x1_S500000x128_1_0_n_n_0_1_1128 x (colOf src))
    (broadcastInDim S500000x128 ![] bcast_S_S500000x128 (constant (F := Ideal) S_ .f32 0x7FC00000#32))

/-- Rows added into their destination rows. -/
def sumInto (dst : Ends) (msg : (⟨S500000x128, .f32⟩ : BufTy).Contents (Elt Ideal)) : Rows :=
  Host.scatterAdd (F := Ideal) scatter_S100000x128_S500000x1_S500000x128_1_0_0_1
    (broadcastInDim S100000x128 ![] bcast_S_S100000x128 (constant (F := Ideal) S_ .f32 0x00000000#32))
    (broadcastInDim S500000x1 ![0] bcast_S500000_S500000x1_0 dst) msg

/-- The number of edges into each destination row. -/
def countInto (dst : Ends) : (⟨S100000, .f32⟩ : BufTy).Contents (Elt Ideal) :=
  Host.scatterAdd (F := Ideal) scatter_S100000_S500000x1_S500000_n_0_0_1
    (broadcastInDim S100000 ![] bcast_S_S100000 (constant (F := Ideal) S_ .f32 0x00000000#32))
    (broadcastInDim S500000x1 ![0] bcast_S500000_S500000x1_0 dst)
    (broadcastInDim S500000 ![] bcast_S_S500000 (constant (F := Ideal) S_ .f32 0x3F800000#32))

variable (m : (ℓ : Loc nD τ sig) → Buf (Elt Ideal) ℓ) (ρ : Dev nD → PrngReg)

/-! ## For source indices in [-100000, 100000) the masked gather is the plain gather -/

/-- Every edge passes the range test. -/
theorem inRows_one (src : Ends) (h : ∀ e, (-100000 : Int) ≤ (src e).toInt ∧ (src e).toInt < 100000) (e : S500000.Idx) :
    inRows src e = 1#1 := by
  unfold inRows
  refine Cert.Sage.reduce_andi_one _ _ _ _ (fun i => ?_) (fun _ => rfl) e
  obtain ⟨e', he'⟩ : ∃ e', colOf src i = Cert.Sage.fromFront (src e') := ⟨_, rfl⟩
  have hr := Cert.Sage.fromFront_in_range (src e') (h e')
  rw [← he'] at hr
  exact hr

/-- So no gathered row is replaced by the fill value. -/
theorem takeRows_eq (x : Rows) (src : Ends) (h : ∀ e, (-100000 : Int) ≤ (src e).toInt ∧ (src e).toInt < 100000) :
    takeRows x src = Host.gather gather_S100000x128_S500000x1_S500000x128_1_0_n_n_0_1_1128 x (colOf src) := by
  funext i
  unfold takeRows
  show Scalar.select (inRows src _) _ _ = _
  rw [inRows_one src h]
  rfl

/-! ## The first pass's input arrays on entry -/

set_option maxHeartbeats 4000000 in
set_option maxRecDepth 100000 in
theorem gene_x (c : Dev nD) :
    W6 (F := Ideal) m ρ c (Proc.devRef .tc main_arg0) = m ((c : Thread nD τ).loc main_arg0) := by
  after_results_simp
  try simp only [TRef.ofBuf, TRef.toBuf, cast_eq]
  try rfl

set_option maxHeartbeats 4000000 in
set_option maxRecDepth 100000 in
theorem gene_sum_gg (c : Dev nD) :
    W6 (F := Ideal) m ρ c (Proc.devRef .tc main_v3) = sumInto (m ((c : Thread nD τ).loc main_arg3)) (takeRows (m ((c : Thread nD τ).loc main_arg0)) (m ((c : Thread nD τ).loc main_arg2))) := by
  after_results_simp
  try simp only [TRef.ofBuf, TRef.toBuf, cast_eq]
  try rfl

set_option maxHeartbeats 4000000 in
set_option maxRecDepth 100000 in
theorem gene_cnt_gg (c : Dev nD) :
    W6 (F := Ideal) m ρ c (Proc.devRef .tc main_v8) = (shapeCast S100000x1 (countInto (m ((c : Thread nD τ).loc main_arg3))) shapeCasts_S100000_S100000x1 : (⟨S100000x1, .f32⟩ : BufTy).Contents (Elt Ideal)) := by
  after_results_simp
  try simp only [TRef.ofBuf, TRef.toBuf, cast_eq]
  try rfl

set_option maxHeartbeats 4000000 in
set_option maxRecDepth 100000 in
theorem gene_sum_tg (c : Dev nD) :
    W6 (F := Ideal) m ρ c (Proc.devRef .tc main_v21) = sumInto (m ((c : Thread nD τ).loc main_arg7)) (takeRows (m ((c : Thread nD τ).loc main_arg1)) (m ((c : Thread nD τ).loc main_arg6))) := by
  after_results_simp
  try simp only [TRef.ofBuf, TRef.toBuf, cast_eq]
  try rfl

set_option maxHeartbeats 4000000 in
set_option maxRecDepth 100000 in
theorem gene_cnt_tg (c : Dev nD) :
    W6 (F := Ideal) m ρ c (Proc.devRef .tc main_v26) = (shapeCast S100000x1 (countInto (m ((c : Thread nD τ).loc main_arg7))) shapeCasts_S100000_S100000x1 : (⟨S100000x1, .f32⟩ : BufTy).Contents (Elt Ideal)) := by
  after_results_simp
  try simp only [TRef.ofBuf, TRef.toBuf, cast_eq]
  try rfl

set_option maxHeartbeats 4000000 in
set_option maxRecDepth 100000 in
theorem gene_ws (c : Dev nD) :
    W6 (F := Ideal) m ρ c (Proc.devRef .tc main_v28) = (truncf (F := Ideal) .bf16 (addf (F := Ideal) (φ := .f32) (m ((c : Thread nD τ).loc main_arg9) : (⟨S128x128, .f32⟩ : BufTy).Contents (Elt Ideal)) (m ((c : Thread nD τ).loc main_arg15))) bitsLt_bf16_f32 : (⟨S128x128, .bf16⟩ : BufTy).Contents (Elt Ideal)) := by
  after_results_simp
  try simp only [TRef.ofBuf, TRef.toBuf, cast_eq]
  try rfl

set_option maxHeartbeats 4000000 in
set_option maxRecDepth 100000 in
theorem gene_wn_gg (c : Dev nD) :
    W6 (F := Ideal) m ρ c (Proc.devRef .tc main_v29) = (truncf (F := Ideal) .bf16 (m ((c : Thread nD τ).loc main_arg8) : (⟨S128x128, .f32⟩ : BufTy).Contents (Elt Ideal)) bitsLt_bf16_f32 : (⟨S128x128, .bf16⟩ : BufTy).Contents (Elt Ideal)) := by
  after_results_simp
  try simp only [TRef.ofBuf, TRef.toBuf, cast_eq]
  try rfl

set_option maxHeartbeats 4000000 in
set_option maxRecDepth 100000 in
theorem gene_wn_tg (c : Dev nD) :
    W6 (F := Ideal) m ρ c (Proc.devRef .tc main_v30) = (truncf (F := Ideal) .bf16 (m ((c : Thread nD τ).loc main_arg14) : (⟨S128x128, .f32⟩ : BufTy).Contents (Elt Ideal)) bitsLt_bf16_f32 : (⟨S128x128, .bf16⟩ : BufTy).Contents (Elt Ideal)) := by
  after_results_simp
  try simp only [TRef.ofBuf, TRef.toBuf, cast_eq]
  try rfl

set_option maxHeartbeats 4000000 in
set_option maxRecDepth 100000 in
theorem gene_b (c : Dev nD) :
    W6 (F := Ideal) m ρ c (Proc.devRef .tc main_v32) = (shapeCast S1x128 (addf (F := Ideal) (φ := .f32) (m ((c : Thread nD τ).loc main_arg10) : (⟨S128, .f32⟩ : BufTy).Contents (Elt Ideal)) (m ((c : Thread nD τ).loc main_arg16))) shapeCasts_S128_S1x128 : (⟨S1x128, .f32⟩ : BufTy).Contents (Elt Ideal)) := by
  after_results_simp
  try simp only [TRef.ofBuf, TRef.toBuf, cast_eq]
  try rfl

/-! ## The second pass's input arrays on entry: the first pass wrote none of them -/

set_option maxHeartbeats 4000000 in
set_option maxRecDepth 100000 in
theorem trait_x (c : Dev nD) :
    W8 (F := Ideal) m ρ c (Proc.devRef .tc main_arg1) = m ((c : Thread nD τ).loc main_arg1) := by
  after_results_simp
  rw [W7_of_ne m ρ c main_arg1 (by decide)]
  after_results_simp
  try simp only [TRef.ofBuf, TRef.toBuf, cast_eq]
  try rfl

set_option maxHeartbeats 4000000 in
set_option maxRecDepth 100000 in
theorem trait_sum_gt (c : Dev nD) :
    W8 (F := Ideal) m ρ c (Proc.devRef .tc main_v12) = sumInto (m ((c : Thread nD τ).loc main_arg5)) (takeRows (m ((c : Thread nD τ).loc main_arg0)) (m ((c : Thread nD τ).loc main_arg4))) := by
  after_results_simp
  rw [W7_of_ne m ρ c main_v12 (by decide)]
  after_results_simp
  try simp only [TRef.ofBuf, TRef.toBuf, cast_eq]
  try rfl

set_option maxHeartbeats 4000000 in
set_option maxRecDepth 100000 in
theorem trait_cnt_gt (c : Dev nD) :
    W8 (F := Ideal) m ρ c (Proc.devRef .tc main_v17) = (shapeCast S100000x1 (countInto (m ((c : Thread nD τ).loc main_arg5))) shapeCasts_S100000_S100000x1 : (⟨S100000x1, .f32⟩ : BufTy).Contents (Elt Ideal)) := by
  after_results_simp
  rw [W7_of_ne m ρ c main_v17 (by decide)]
  after_results_simp
  try simp only [TRef.ofBuf, TRef.toBuf, cast_eq]
  try rfl

set_option maxHeartbeats 4000000 in
set_option maxRecDepth 100000 in
theorem trait_ws (c : Dev nD) :
    W8 (F := Ideal) m ρ c (Proc.devRef .tc main_v34) = (truncf (F := Ideal) .bf16 (m ((c : Thread nD τ).loc main_arg12) : (⟨S128x128, .f32⟩ : BufTy).Contents (Elt Ideal)) bitsLt_bf16_f32 : (⟨S128x128, .bf16⟩ : BufTy).Contents (Elt Ideal)) := by
  after_results_simp
  rw [W7_of_ne m ρ c main_arg12 (by decide)]
  after_results_simp
  try simp only [TRef.ofBuf, TRef.toBuf, cast_eq]
  try rfl

set_option maxHeartbeats 4000000 in
set_option maxRecDepth 100000 in
theorem trait_wn (c : Dev nD) :
    W8 (F := Ideal) m ρ c (Proc.devRef .tc main_v35) = (truncf (F := Ideal) .bf16 (m ((c : Thread nD τ).loc main_arg11) : (⟨S128x128, .f32⟩ : BufTy).Contents (Elt Ideal)) bitsLt_bf16_f32 : (⟨S128x128, .bf16⟩ : BufTy).Contents (Elt Ideal)) := by
  after_results_simp
  rw [W7_of_ne m ρ c main_arg11 (by decide)]
  after_results_simp
  try simp only [TRef.ofBuf, TRef.toBuf, cast_eq]
  try rfl

set_option maxHeartbeats 4000000 in
set_option maxRecDepth 100000 in
theorem trait_b (c : Dev nD) :
    W8 (F := Ideal) m ρ c (Proc.devRef .tc main_v36) = (shapeCast S1x128 (m ((c : Thread nD τ).loc main_arg13) : (⟨S128, .f32⟩ : BufTy).Contents (Elt Ideal)) shapeCasts_S128_S1x128 : (⟨S1x128, .f32⟩ : BufTy).Contents (Elt Ideal)) := by
  after_results_simp
  rw [W7_of_ne m ρ c main_arg13 (by decide)]
  after_results_simp
  try simp only [TRef.ofBuf, TRef.toBuf, cast_eq]
  try rfl

/-! ## The two result buffers at the end: what each pass's write-backs leave -/

set_option maxHeartbeats 4000000 in
set_option maxRecDepth 100000 in
theorem gene_result (c : Dev nD) :
    W9 (F := Ideal) m ρ c (Proc.devRef .tc main_v33) = (dat0 (V6 m ρ) c).arrAt 9 cfg0.N := by
  rw [W9_of_ne m ρ c main_v33 (by decide)]
  after_results_simp
  exact W7_arr m ρ c 9

theorem trait_result (c : Dev nD) :
    W9 (F := Ideal) m ρ c (Proc.devRef .tc main_v37) = (dat1 (V8 m ρ) c).arrAt 6 cfg1.N :=
  W9_arr m ρ c 6

end Cert.KernelIdeal.Host

end
-- ==== Proof.Forms.lean ====
/-
  One entry of a node-feature update, in two arrangements.

  A destination row `r` of a graph layer with mean aggregation receives, per edge type, its own features through the
  self weights, the mean of its neighbours' features through the neighbour weights, and a bias:
  `(Σₖ x r k · Ws k j + Σₖ (s r k / max (d r) 1) · Wn k j) + b j`, where `s` is the sum of the neighbour rows and `d` the
  number of them. Where two edge types end in the same kind of node the two updates are added.

  The second arrangement adds the two self-weight matrices and the two biases first and applies the row once:
  `((Σₖ x r k · (Ws k j + Ws' k j) + P) + Q) + (b j + b' j)`. The two agree on the extended reals when the row and the two
  self-weight columns are real numbers: `x · (a + a') = x · a + x · a'` needs that (it fails at `x < 0, a = ⊤, a' = ⊥`),
  while regrouping the six summands needs only that addition is commutative and associative.
-/
import Idealize.ShloMosaic.PureOps.Ideal
import Idealize.ShloMosaic.Lib.ValueIdx

noncomputable section

namespace Cert.Sage

open Idealize.ShloMosaic Idealize.ShloMosaic.ValueIdx

/-- The degree floor: a node with no neighbour divides by one. -/
def one : EReal := Ideal.ofBits .f32 0x3F800000#32

/-- One entry of the mean of the neighbour rows: the summed entry over the neighbour count, floored at one. -/
def meanAt (s d : EReal) : EReal := Ideal.div s (max d one)

/-- One entry of one edge type's update: self term, neighbour term, bias. -/
def convAt (x h ws wn : Fin 128 → EReal) (b : EReal) : EReal :=
  ((∑ k, x k * ws k) + ∑ k, h k * wn k) + b

/-- Two edge types into one node kind, each update formed whole and then added. -/
def twoAt (x h h' ws wn ws' wn' : Fin 128 → EReal) (b b' : EReal) : EReal :=
  convAt x h ws wn b + convAt x h' ws' wn' b'

/-- The same with the self weights and the biases added first. -/
def fusedAt (x h h' ws wn ws' wn' : Fin 128 → EReal) (b b' : EReal) : EReal :=
  (((∑ k, x k * (ws k + ws' k)) + ∑ k, h k * wn k) + ∑ k, h' k * wn' k) + (b + b')

/-- A real number times a sum of two real numbers distributes, on the extended reals. -/
theorem mul_add_of_real {x a a' : EReal} (hx : x ≠ ⊤ ∧ x ≠ ⊥) (ha : a ≠ ⊤ ∧ a ≠ ⊥) (ha' : a' ≠ ⊤ ∧ a' ≠ ⊥) :
    x * (a + a') = x * a + x * a' := by
  lift x to ℝ using hx
  lift a to ℝ using ha
  lift a' to ℝ using ha'
  rw [← EReal.coe_add, ← EReal.coe_mul, ← EReal.coe_mul, ← EReal.coe_mul, ← EReal.coe_add, mul_add]

/-- The two arrangements agree when the row and both self-weight columns are real. -/
theorem fusedAt_eq_twoAt (x h h' ws wn ws' wn' : Fin 128 → EReal) (b b' : EReal)
    (hx : ∀ k, x k ≠ ⊤ ∧ x k ≠ ⊥) (hws : ∀ k, ws k ≠ ⊤ ∧ ws k ≠ ⊥) (hws' : ∀ k, ws' k ≠ ⊤ ∧ ws' k ≠ ⊥) :
    fusedAt x h h' ws wn ws' wn' b b' = twoAt x h h' ws wn ws' wn' b b' := by
  have hsum : (∑ k, x k * (ws k + ws' k)) = (∑ k, x k * ws k) + ∑ k, x k * ws' k := by
    rw [← Finset.sum_add_distrib]
    exact Finset.sum_congr rfl fun k _ => mul_add_of_real (hx k) (hws k) (hws' k)
  unfold fusedAt twoAt convAt
  rw [hsum]
  abel

/-! ## The same entries read off whole arrays

  `x`, `s` are node-feature arrays (100000 × 128), `d` a neighbour count per node held as a column (100000 × 1),
  the weights 128 × 128 and the bias a row (1 × 128): the layout in which a tiled pass over the rows receives them. -/

/-- One edge type's update of row `r`, column `j`. -/
def convArrAt (x s : (⟨2, ![100000, 128]⟩ : Shape).Idx → EReal) (d : (⟨2, ![100000, 1]⟩ : Shape).Idx → EReal)
    (ws wn : (⟨2, ![128, 128]⟩ : Shape).Idx → EReal) (b : (⟨2, ![1, 128]⟩ : Shape).Idx → EReal)
    (r : Fin 100000) (j : Fin 128) : EReal :=
  convAt (fun k => x (ix2 r k)) (fun k => meanAt (s (ix2 r k)) (d (ix2 r (0 : Fin 1))))
    (fun k => ws (ix2 k j)) (fun k => wn (ix2 k j)) (b (ix2 (0 : Fin 1) j))

/-- Two edge types into row `r`, column `j`, the self weights `ws` and the bias `b` already summed over the two. -/
def fusedArrAt (x s : (⟨2, ![100000, 128]⟩ : Shape).Idx → EReal) (d : (⟨2, ![100000, 1]⟩ : Shape).Idx → EReal)
    (s' : (⟨2, ![100000, 128]⟩ : Shape).Idx → EReal) (d' : (⟨2, ![100000, 1]⟩ : Shape).Idx → EReal)
    (ws wn wn' : (⟨2, ![128, 128]⟩ : Shape).Idx → EReal) (b : (⟨2, ![1, 128]⟩ : Shape).Idx → EReal)
    (r : Fin 100000) (j : Fin 128) : EReal :=
  (((∑ k, x (ix2 r k) * ws (ix2 k j)) + ∑ k, meanAt (s (ix2 r k)) (d (ix2 r (0 : Fin 1))) * wn (ix2 k j))
    + ∑ k, meanAt (s' (ix2 r k)) (d' (ix2 r (0 : Fin 1))) * wn' (ix2 k j)) + b (ix2 (0 : Fin 1) j)

end Cert.Sage

end
-- ==== Proof.GeneBlock.lean ====
/-
  The gene rows after the first tiled pass: every row of the result array is the fused update of that row, read off
  the pass's nine input arrays as the pass finds them.
-/
import proofs.«421555_j34385508171930_2_alg».proof.Proof.Gen.KernelIdeal.Frame
import proofs.«421555_j34385508171930_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Gene

/-! ## One product of a row block with a weight matrix, at an index -/

theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A row block times a weight matrix into a zero accumulator, read at row `p`, column `q`: the row against the column. -/
theorem matmul_zero_at (a : FVec Ideal S4000x128 .bf16) (w : FVec Ideal S128x128 .bf16) (p : Fin 4000) (q : Fin 128) :
    FloatOps.matmul dot_S4000x128_S128x128_S4000x128_1_0_0_1_n_n none a w (constant S4000x128 .f32 0x00000000#32) (ix2 p q)
      = ∑ k : Fin 128, a (ix2 p k) * w (ix2 k q) := by
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun ax => Fin.ext (by
    match ax with
    | ⟨0, _⟩ => exact lhs_0 _ _
    | ⟨1, _⟩ => exact (lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun ax => Fin.ext (by
    match ax with
    | ⟨0, _⟩ => exact (rhs_0 _ _).trans hk
    | ⟨1, _⟩ => exact rhs_1 _ _)
  rw [el, er]

/-- A `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at one row and column of a block -/

/-- The payload of the nine loaded blocks, read at row `p`, column `q` of the block. -/
theorem pay_at (x0 x1 : Vec Ideal S4000x128 .f32) (x2 : Vec Ideal S4000x1 .f32) (x3 : Vec Ideal S4000x128 .f32)
    (x4 : Vec Ideal S4000x1 .f32) (x5 x6 x7 : Vec Ideal S128x128 .bf16) (x8 : Vec Ideal S1x128 .f32) (p : Fin 4000) (q : Fin 128) :
    k0_pay1 (F := Ideal) x0 x1 x2 x3 x4 x5 x6 x7 x8 (ix2 p q)
      = (((∑ k : Fin 128, x0 (ix2 p k) * x5 (ix2 k q))
          + ∑ k : Fin 128, Cert.Sage.meanAt (x1 (ix2 p k)) (x2 (ix2 p (0 : Fin 1))) * x6 (ix2 k q))
          + ∑ k : Fin 128, Cert.Sage.meanAt (x3 (ix2 p k)) (x4 (ix2 p (0 : Fin 1))) * x7 (ix2 k q))
        + x8 (ix2 (0 : Fin 1) q) := by
  unfold k0_pay1
  simp only [addf_apply, matmul]
  rw [matmul_zero_at, matmul_zero_at, matmul_zero_at]
  simp only [truncf_apply, divf_apply, shapeCast_self, broadcastTo_a1_ab_apply, maximumf_apply, broadcast_apply,
    broadcastTo_1b_ab_apply, Ideal.ofBits_def]
  rfl

/-! ## What a grid point writes back -/

theorem hz : (![0, 0] : Fin 2 → Nat) = fun _ => 0 := funext fun a => by fin_cases a <;> rfl

/-- Two functions of a two-axis index agree when they agree at every explicit pair of coordinates. -/
theorem funext_ix2 {α : Type} {n0 n1 : Nat} (f g : (⟨2, ![n0, n1]⟩ : Shape).Idx → α)
    (h : ∀ (p : Fin n0) (q : Fin n1), f (ix2 p q) = g (ix2 p q)) : f = g :=
  funext fun j => by rw [eq_ix2 j]; exact h _ _

/-- The whole result array, as one function of the pass's nine input arrays. -/
abbrev G (c : Dev nD) : S100000x128.Idx → Elt Ideal .f32 := fun i =>
  Cert.Sage.fusedArrAt (V c main_arg0) (V c main_v3) (V c main_v8) (V c main_v21) (V c main_v26)
    (V c main_v28) (V c main_v29) (V c main_v30) (V c main_v32) (i 0) (i 1)

/-- The printed index maps, decided over the grid: the row-tiled windows sit at block `(t, 0)`, the weights and the
    bias at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem flushed_eq (c : Dev nD) (t : Fin cfg0.N) :
    (dat0 (F := Ideal) V c).flushed 9 t = ((cfg0.win 9).blk t).view.read (Elt Ideal) (G V c) := by
  show (cfg0.win 9).cut (grid0.coords t) ((dat0 (F := Ideal) V c).after 9 t) = _
  rw [after0_9]
  unfold out0_9
  rw [View.canon_unit_zero hz]
  simp only [View.ld_unit_zero (S := S4000x128) hz, View.ld_unit_zero (S := S4000x1) hz, View.ld_unit_zero (S := S128x128) hz, View.ld_unit_zero (S := S1x128) hz]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩⟩ := idx_facts t
  refine funext_ix2 (n0 := 4000) (n1 := 128) _ _ fun p q => ?_
  show k0_pay1 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q) = G V c (((cfg0.win 9).blk t).view.emb (ix2 p q))
  rw [pay_at]
  have ht : t.val < 25 := t.isLt
  have hp : p.val < 4000 := p.isLt
  have hr : t.val * 4000 + p.val < 100000 := by omega
  -- row `p` of block `t` is row `t * 4000 + p` of the whole array; the columns are the array's own
  have e9 : ((cfg0.win 9).blk t).view.emb (ix2 p q) = ix2 (⟨t.val * 4000 + p.val, hr⟩ : Fin 100000) q := by
    funext a; apply Fin.ext
    match a with
    | ⟨0, _⟩ => show win0_9.index t (0 : Fin 2) * 4000 + 1 * p.val = t.val * 4000 + p.val; omega
    | ⟨1, _⟩ => show win0_9.index t (1 : Fin 2) * 128 + 1 * q.val = q.val; omega
  -- each input block read where the output's rectangle says: the row-tiled arrays at that row,
  have r0 : ∀ k : Fin 128, iblk0 V c 0 t (ix2 p k) = V c main_arg0 (ix2 (⟨t.val * 4000 + p.val, hr⟩ : Fin 100000) k) := fun k => by
    show V c main_arg0 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  have r1 : ∀ k : Fin 128, iblk0 V c 1 t (ix2 p k) = V c main_v3 (ix2 (⟨t.val * 4000 + p.val, hr⟩ : Fin 100000) k) := fun k => by
    show V c main_v3 (((cfg0.win 1).blk t).view.emb (ix2 p k)) = _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 128 + 1 * k.val = k.val; omega
  have r2 : iblk0 V c 2 t (ix2 p (0 : Fin 1)) = V c main_v8 (ix2 (⟨t.val * 4000 + p.val, hr⟩ : Fin 100000) (0 : Fin 1)) := by
    show V c main_v8 (((cfg0.win 2).blk t).view.emb (ix2 p (0 : Fin 1))) = _
    refine congrArg _ (funext fun a => Fin.ext ?_)
    match a with
    | ⟨0, _⟩ => show win0_2.index t (0 : Fin 2) * 4000 + 1 * p.val = t.val * 4000 + p.val; omega
    | ⟨1, _⟩ => show win0_2.index t (1 : Fin 2) * 1 + 1 * 0 = 0; omega
  have r3 : ∀ k : Fin 128, iblk0 V c 3 t (ix2 p k) = V c main_v21 (ix2 (⟨t.val * 4000 + p.val, hr⟩ : Fin 100000) k) := fun k => by
    show V c main_v21 (((cfg0.win 3).blk t).view.emb (ix2 p k)) = _
    refine congrArg _ (funext fun a => Fin.ext ?_)
    match a with
    | ⟨0, _⟩ => show win0_3.index t (0 : Fin 2) * 4000 + 1 * p.val = t.val * 4000 + p.val; omega
    | ⟨1, _⟩ => show win0_3.index t (1 : Fin 2) * 128 + 1 * k.val = k.val; omega
  have r4 : iblk0 V c 4 t (ix2 p (0 : Fin 1)) = V c main_v26 (ix2 (⟨t.val * 4000 + p.val, hr⟩ : Fin 100000) (0 : Fin 1)) := by
    show V c main_v26 (((cfg0.win 4).blk t).view.emb (ix2 p (0 : Fin 1))) = _
    refine congrArg _ (funext fun a => Fin.ext ?_)
    match a with
    | ⟨0, _⟩ => show win0_4.index t (0 : Fin 2) * 4000 + 1 * p.val = t.val * 4000 + p.val; omega
    | ⟨1, _⟩ => show win0_4.index t (1 : Fin 2) * 1 + 1 * 0 = 0; omega
  -- the weights and the bias whole
  have r5 : ∀ k : Fin 128, iblk0 V c 5 t (ix2 k q) = V c main_v28 (ix2 k q) := fun k => by
    show V c main_v28 (((cfg0.win 5).blk t).view.emb (ix2 k q)) = _
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega
  have r6 : ∀ k : Fin 128, iblk0 V c 6 t (ix2 k q) = V c main_v29 (ix2 k q) := fun k => by
    show V c main_v29 (((cfg0.win 6).blk t).view.emb (ix2 k q)) = _
    refine congrArg _ (funext fun a => Fin.ext ?_)
    match a with
    | ⟨0, _⟩ => show win0_6.index t (0 : Fin 2) * 128 + 1 * k.val = k.val; omega
    | ⟨1, _⟩ => show win0_6.index t (1 : Fin 2) * 128 + 1 * q.val = q.val; omega
  have r7 : ∀ k : Fin 128, iblk0 V c 7 t (ix2 k q) = V c main_v30 (ix2 k q) := fun k => by
    show V c main_v30 (((cfg0.win 7).blk t).view.emb (ix2 k q)) = _
    refine congrArg _ (funext fun a => Fin.ext ?_)
    match a with
    | ⟨0, _⟩ => show win0_7.index t (0 : Fin 2) * 128 + 1 * k.val = k.val; omega
    | ⟨1, _⟩ => show win0_7.index t (1 : Fin 2) * 128 + 1 * q.val = q.val; omega
  have r8 : iblk0 V c 8 t (ix2 (0 : Fin 1) q) = V c main_v32 (ix2 (0 : Fin 1) q) := by
    show V c main_v32 (((cfg0.win 8).blk t).view.emb (ix2 (0 : Fin 1) q)) = _
    refine congrArg _ (funext fun a => Fin.ext ?_)
    match a with
    | ⟨0, _⟩ => show win0_8.index t (0 : Fin 2) * 1 + 1 * 0 = 0; omega
    | ⟨1, _⟩ => show win0_8.index t (1 : Fin 2) * 128 + 1 * q.val = q.val; omega
  rw [e9]
  simp only [r0, r1, r2, r3, r4, r5, r6, r7, r8]
  rfl

/-! ## From the blocks to the array -/

/-- An index of the array is in point `t`'s block iff each coordinate is in the block's range on its axis. -/
theorem mem_blk (t : Fin cfg0.N) (i : S100000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v33).slice (win0_9.rect t)).set ↔ _
  rw [View.set_slice_whole, Rect.mem_set_unit]
  exact Iff.rfl

/-- Row `r` lies in the block of point `r / 4000`: 25 points of 4000 rows are the 100000 rows, with no partial block. -/
theorem covered (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hlt : (i 0).val / 4000 < 25 := by omega
  obtain ⟨-, -, -, -, -, -, -, -, -, a9, b9⟩ := idx_facts ⟨(i 0).val / 4000, hlt⟩
  have a9' : win0_9.index ⟨(i 0).val / 4000, hlt⟩ (0 : Fin 2) = (i 0).val / 4000 := a9
  refine ⟨⟨(i 0).val / 4000, hlt⟩, flush0_9 _, ?_⟩
  rw [mem_blk]
  intro a
  match a with
  | ⟨0, _⟩ =>
    show win0_9.index ⟨(i 0).val / 4000, hlt⟩ (0 : Fin 2) * 4000 ≤ (i 0).val
      ∧ (i 0).val < win0_9.index ⟨(i 0).val / 4000, hlt⟩ (0 : Fin 2) * 4000 + 4000
    omega
  | ⟨1, _⟩ =>
    show win0_9.index ⟨(i 0).val / 4000, hlt⟩ (1 : Fin 2) * 128 ≤ (i 1).val
      ∧ (i 1).val < win0_9.index ⟨(i 0).val / 4000, hlt⟩ (1 : Fin 2) * 128 + 128
    omega

end Gene

/-- Entry `(r, j)` of the result array after the pass is the fused update of row `r`, column `j`. -/
theorem gene_block (c : Dev nD) (r : Fin 100000) (j : Fin 128) :
    (dat0 (F := Ideal) V c).arrAt 9 cfg0.N (ix2 r j)
      = Cert.Sage.fusedArrAt (V c main_arg0) (V c main_v3) (V c main_v8) (V c main_v21) (V c main_v26)
          (V c main_v28) (V c main_v29) (V c main_v30) (V c main_v32) r j := by
  rw [(dat0 (F := Ideal) V c).arrAt_eq_of_cover 9 (Gene.G V c) (fun t _ => Gene.flushed_eq V c t) Gene.covered]

end Cert.KernelIdeal.Blocks

end
-- ==== Proof.TraitBlock.lean ====
/-
  The trait rows after the second tiled pass: every row of the result array is one edge type's update of that row,
  read off the pass's six input arrays as the pass finds them.
-/
import proofs.«421555_j34385508171930_2_alg».proof.Proof.Gen.KernelIdeal.Frame
import proofs.«421555_j34385508171930_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-buffer access, as a constant function. -/
theorem hz_t : (![0, 0] : Fin 2 → Nat) = fun _ => 0 := funext fun a => by fin_cases a <;> rfl

/-- A column `[a, 1]` broadcast to `[a, b]` reads, at `(p, c)`, the column's entry of row `p`. -/
theorem broadcastTo_a1_ab_apply_t {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices, axis by axis: at output `i` and contraction index `q` the left operand is read at
    `(i 0, q)` and the right at `(q, i 1)`. -/
theorem lhs_dot_0_t (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot_1_t (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_dot_0_t (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_dot_1_t (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block's product with a weight matrix, into a zero accumulator, read at `(p, q)`: row `p` against column `q`. -/
theorem matmul_at_t (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_dot_0_t _ _
    | ⟨1, _⟩ => exact (lhs_dot_1_t _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_dot_0_t _ _).trans hk
    | ⟨1, _⟩ => exact rhs_dot_1_t _ _)
  rw [el, er]

/-- The body's arithmetic at row `p`, column `q` of its blocks: one edge type's update of that row. -/
theorem pay_at_t (x0 x1 : Vec Ideal S4000x128 .f32) (x2 : Vec Ideal S4000x1 .f32) (x3 x4 : Vec Ideal S128x128 .bf16)
    (x5 : Vec Ideal S1x128 .f32) (p : Fin 4000) (q : Fin 128) :
    k1_pay1 (F := Ideal) x0 x1 x2 x3 x4 x5 (ix2 p q)
      = Cert.Sage.convAt (fun k => x0 (ix2 p k)) (fun k => Cert.Sage.meanAt (x1 (ix2 p k)) (x2 (ix2 p (0 : Fin 1))))
          (fun k => x3 (ix2 k q)) (fun k => x4 (ix2 k q)) (x5 (ix2 (0 : Fin 1) q)) := by
  unfold k1_pay1
  simp only [shapeCast_self]
  rw [addf_apply, addf_apply, matmul_at_t, matmul_at_t, broadcastTo_1b_ab_apply]
  simp only [truncf_apply, divf_apply, broadcastTo_a1_ab_apply_t, maximumf_apply, broadcast_apply]
  rfl

variable (V : (c : Dev nD) → (b : Ref sig .tc) → Buf (Elt Ideal) ((c : Thread nD τ).loc b))

/-- The index maps of the pass over its 25 points: the four row-tiled windows sit at block `(t, 0)`, the two weight
    matrices and the bias at block `(0, 0)`. -/
theorem idx_facts_t : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s block is row `4000 t + p` of the array. -/
def row_t (t : Fin cfg1.N) (p : Fin 4000) : Fin 100000 :=
  ⟨t.val * 4000 + p.val, by have h : t.val < 25 := lt_of_lt_of_eq t.isLt N_1; have := p.isLt; omega⟩

/-- Each input window's block at point `t`, read at explicit coordinates, is its array read at the matching row and
    column: the row-tiled arrays at row `4000 t + p`, the weights and the bias where they stand. -/
theorem blk0_at_t (c : Dev nD) (t : Fin cfg1.N) (p : Fin 4000) (k : Fin 128) :
    (iblk1 V c 0 t : Vec Ideal S4000x128 .f32) (ix2 p k) = (V c main_arg1 : S100000x128.Idx → EReal) (ix2 (row_t t p) k) := by
  obtain ⟨e0, e1, -⟩ := idx_facts_t t
  unfold iblk1
  rw [View.read_apply]
  show V c main_arg1 _ = V c main_arg1 _
  congr 1
  funext a
  apply Fin.ext
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

theorem blk1_at_t (c : Dev nD) (t : Fin cfg1.N) (p : Fin 4000) (k : Fin 128) :
    (iblk1 V c 1 t : Vec Ideal S4000x128 .f32) (ix2 p k) = (V c main_v12 : S100000x128.Idx → EReal) (ix2 (row_t t p) k) := by
  obtain ⟨-, -, e0, e1, -⟩ := idx_facts_t t
  unfold iblk1
  rw [View.read_apply]
  show V c main_v12 _ = V c main_v12 _
  congr 1
  funext a
  apply Fin.ext
  match a with
  | ⟨0, _⟩ => show win1_1.index t (0 : Fin 2) * 4000 + 1 * p.val = t.val * 4000 + p.val; rw [e0]; omega
  | ⟨1, _⟩ => show win1_1.index t (1 : Fin 2) * 128 + 1 * k.val = k.val; rw [e1]; omega

theorem blk2_at_t (c : Dev nD) (t : Fin cfg1.N) (p : Fin 4000) (k : Fin 1) :
    (iblk1 V c 2 t : Vec Ideal S4000x1 .f32) (ix2 p k) = (V c main_v17 : S100000x1.Idx → EReal) (ix2 (row_t t p) k) := by
  obtain ⟨-, -, -, -, e0, e1, -⟩ := idx_facts_t t
  unfold iblk1
  rw [View.read_apply]
  show V c main_v17 _ = V c main_v17 _
  congr 1
  funext a
  apply Fin.ext
  match a with
  | ⟨0, _⟩ => show win1_2.index t (0 : Fin 2) * 4000 + 1 * p.val = t.val * 4000 + p.val; rw [e0]; omega
  | ⟨1, _⟩ => show win1_2.index t (1 : Fin 2) * 1 + 1 * k.val = k.val; rw [e1]; omega

theorem blk3_at_t (c : Dev nD) (t : Fin cfg1.N) (k : Fin 128) (q : Fin 128) :
    (iblk1 V c 3 t : Vec Ideal S128x128 .bf16) (ix2 k q) = (V c main_v34 : S128x128.Idx → EReal) (ix2 k q) := by
  obtain ⟨-, -, -, -, -, -, e0, e1, -⟩ := idx_facts_t t
  unfold iblk1
  rw [View.read_apply]
  show V c main_v34 _ = V c main_v34 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

theorem blk4_at_t (c : Dev nD) (t : Fin cfg1.N) (k : Fin 128) (q : Fin 128) :
    (iblk1 V c 4 t : Vec Ideal S128x128 .bf16) (ix2 k q) = (V c main_v35 : S128x128.Idx → EReal) (ix2 k q) := by
  obtain ⟨-, -, -, -, -, -, -, -, e0, e1, -⟩ := idx_facts_t t
  unfold iblk1
  rw [View.read_apply]
  show V c main_v35 _ = V c main_v35 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

theorem blk5_at_t (c : Dev nD) (t : Fin cfg1.N) (k : Fin 1) (q : Fin 128) :
    (iblk1 V c 5 t : Vec Ideal S1x128 .f32) (ix2 k q) = (V c main_v36 : S1x128.Idx → EReal) (ix2 k q) := by
  obtain ⟨-, -, -, -, -, -, -, -, -, -, e0, e1, -⟩ := idx_facts_t t
  unfold iblk1
  rw [View.read_apply]
  show V c main_v36 _ = V c main_v36 _
  congr 1
  funext a
  apply Fin.ext
  match a with
  | ⟨0, _⟩ => show win1_5.index t (0 : Fin 2) * 1 + 1 * k.val = k.val; rw [e0]; omega
  | ⟨1, _⟩ => show win1_5.index t (1 : Fin 2) * 128 + 1 * q.val = q.val; rw [e1]; omega

/-- Where entry `(p, q)` of point `t`'s result block lands in the result array. -/
theorem emb6_at_t (t : Fin cfg1.N) (p : Fin 4000) (q : Fin 128) :
    (((cfg1.win 6).blk t).view.emb (ix2 p q) : S100000x128.Idx) = ix2 (row_t t p) q := by
  obtain ⟨-, -, -, -, -, -, -, -, -, -, -, -, e0, e1⟩ := idx_facts_t t
  funext a
  apply Fin.ext
  match a with
  | ⟨0, _⟩ => show win1_6.index t (0 : Fin 2) * 4000 + 1 * p.val = t.val * 4000 + p.val; rw [e0]; omega
  | ⟨1, _⟩ => show win1_6.index t (1 : Fin 2) * 128 + 1 * q.val = q.val; rw [e1]; omega

/-- The result array as one function of the pass's six input arrays: entry `(r, j)` is one edge type's update. -/
def G_t (c : Dev nD) : S100000x128.Idx → EReal := fun i =>
  Cert.Sage.convArrAt (V c main_arg1) (V c main_v12) (V c main_v17) (V c main_v34) (V c main_v35) (V c main_v36) (i 0) (i 1)

/-- What point `t` writes back is block `t` of that function. -/
theorem flushed_eq_t (c : Dev nD) (t : Fin cfg1.N) :
    (dat1 (F := Ideal) V c).flushed 6 t = ((cfg1.win 6).blk t).view.read (Elt Ideal) (G_t V c) := by
  show (cfg1.win 6).cut (grid1.coords t) ((dat1 V c).after 6 t) = _
  rw [after1_6]
  unfold out1_6
  rw [View.canon_unit_zero hz_t]
  simp only [View.ld_unit_zero (S := S4000x128) hz_t, View.ld_unit_zero (S := S4000x1) hz_t,
    View.ld_unit_zero (S := S128x128) hz_t, View.ld_unit_zero (S := S1x128) hz_t]
  funext y
  obtain ⟨p, q, rfl⟩ : ∃ (p : Fin 4000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 p q)
    = G_t V c (((cfg1.win 6).blk t).view.emb (ix2 p q))
  rw [pay_at_t, emb6_at_t]
  simp only [blk0_at_t, blk1_at_t, blk2_at_t, blk3_at_t, blk4_at_t, blk5_at_t]
  rfl

/-- An index of the result array lies in point `t`'s block iff each coordinate lies in the block's range on its axis. -/
theorem mem_blk_t (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v37).slice (win1_6.rect t)).set ↔ _
  rw [View.set_slice_whole, Rect.mem_set_unit]
  exact Iff.rfl

/-- The 25 blocks of 4000 rows tile the 100000 rows: row `r` lies in the block of point `r / 4000`. -/
theorem cover_t (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 4000 < cfg1.N := lt_of_lt_of_eq (by omega : (i 0).val / 4000 < 25) N_1.symm
  obtain ⟨-, -, -, -, -, -, -, -, -, -, -, -, e0, e1⟩ := idx_facts_t ⟨(i 0).val / 4000, ht⟩
  refine ⟨⟨(i 0).val / 4000, ht⟩, flush1_6 _, ?_⟩
  rw [mem_blk_t]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    rw [e1]
    omega

/-- Every entry of the result array after the pass is one edge type's update of its row. -/
theorem trait_block (c : Dev nD) (r : Fin 100000) (j : Fin 128) :
    (dat1 (F := Ideal) V c).arrAt 6 cfg1.N (ix2 r j)
      = Cert.Sage.convArrAt (V c main_arg1) (V c main_v12) (V c main_v17) (V c main_v34) (V c main_v35) (V c main_v36) r j := by
  rw [(dat1 (F := Ideal) V c).arrAt_eq_of_cover 6 (G_t V c) (fun t _ => flushed_eq_t V c t) cover_t]
  rfl

end Cert.KernelIdeal.Blocks

end
-- ==== Proof.Domain.lean ====
/-
  What the precondition says of the arrays the equivalence leans on: the gene features and the two gene self-weight
  matrices hold real numbers (the one algebraic step, distributing a row over a sum of two weight columns, needs
  that), and every source index of the three edge lists lies in [-100000, 100000), the range in which an index into a
  100000-row table, counted from either end, names a row.

  The precondition is one `i1` scalar: the conjunction, nested to the left, of fourteen reductions by `and` — eleven of
  |x| < +∞ over a float array, three of (-100000 ≤ s) ∧ (s < 100000) over an index array. It being 1 makes each reduction 1,
  a reduction by `and` that is 1 makes every element compared 1, and an element says: of an extended real x, that
  max x (-x) is below ⊤, so x is neither ⊤ nor ⊥; of a 32-bit word s, the two signed comparisons.
-/
import proofs.«421555_j34385508171930_2_alg».proof.Defs
import proofs.«421555_j34385508171930_2_alg».proof.Proof.Gen.KernelIdeal
import proofs.«421555_j34385508171930_2_alg».proof.Proof.Gen.Pre_finite_inputs
import Idealize.ShloMosaic.Lib.ReduceAll
import Idealize.ShloMosaic.Lib.StableHlo.Predicate

noncomputable section

namespace Cert.KernelIdeal.Domain

open Cert.KernelIdeal Idealize.ShloMosaic Idealize.ShloMosaic.TcCoe Idealize.SL.Sem

/-- The scalar shape has one index. -/
instance : Subsingleton Cert.Pre_finite_inputs.S_.Idx := ⟨fun a b => funext fun d => d.elim0⟩

/-- The f32 pattern with all exponent bits set and no others denotes +∞. -/
theorem inf_bits : Ideal.ofBits .f32 0x7F800000#32 = (⊤ : EReal) := by
  simp [Ideal.ofBits, Ideal.ieee]

/-- An extended real whose absolute value, max x (-x), is below ⊤ is neither infinity. -/
theorem real_of_abs_lt_top (x : EReal) (hx : max x (-x) < ⊤) : x ≠ ⊤ ∧ x ≠ ⊥ := by
  obtain ⟨h1, h2⟩ := max_lt_iff.1 hx
  exact ⟨ne_of_lt h1, fun e => by rw [e] at h2; exact absurd h2 (by simp)⟩

/-- The reduction by `and` of the comparisons |x| < +∞ over an array being 1 says every entry of x is a real number. -/
theorem real_of_all {s : Shape} {axes : List (Fin s.rank)} (x : FVec Ideal s .f32)
    (hb : Cert.Pre_finite_inputs.S_.BroadcastsInDim s ![]) (hr : s.ReducesTo axes Cert.Pre_finite_inputs.S_)
    (hu : 0 < Cert.Pre_finite_inputs.S_.numel) (init : IVec Cert.Pre_finite_inputs.S_ 1) (j : Cert.Pre_finite_inputs.S_.Idx)
    (e : Host.reduce IntOp.andi (cmpf .olt (Host.absf x)
      (broadcastInDim s ![] hb (constant Cert.Pre_finite_inputs.S_ .f32 0x7F800000#32))) init hr hu j = 1#1)
    (i : s.Idx) : x i ≠ (⊤ : EReal) ∧ x i ≠ (⊥ : EReal) := by
  have p := Host.reduce_andi_all _ init hr hu j e i
  simp only [cmpf, Host.absf, broadcastInDim, constant] at p
  change Ideal.cmp .olt (max (x i) (-(x i))) (Ideal.ofBits .f32 0x7F800000#32) = 1#1 at p
  rw [inf_bits, Ideal.cmp, StableHlo.Predicate.ofBool_eq_one_iff, decide_eq_true_eq] at p
  exact real_of_abs_lt_top _ p

/-- The reduction by `and` of (s ≥ -100000) ∧ (s < 100000) over an array of words being 1 says every word of s, read
    signed, lies in [-100000, 100000); the word 4294867296 is -100000 read signed. -/
theorem range_of_all {s : Shape} {axes : List (Fin s.rank)} (x : IVec s 32)
    (hb : Cert.Pre_finite_inputs.S_.BroadcastsInDim s ![]) (hr : s.ReducesTo axes Cert.Pre_finite_inputs.S_)
    (hu : 0 < Cert.Pre_finite_inputs.S_.numel) (init : IVec Cert.Pre_finite_inputs.S_ 1) (j : Cert.Pre_finite_inputs.S_.Idx)
    (e : Host.reduce IntOp.andi (andi
        (cmpi .sge x (broadcastInDim s ![] hb (constantI Cert.Pre_finite_inputs.S_ 32 4294867296#32)))
        (cmpi .slt x (broadcastInDim s ![] hb (constantI Cert.Pre_finite_inputs.S_ 32 100000#32)))) init hr hu j = 1#1)
    (i : s.Idx) : (-100000 : Int) ≤ (x i).toInt ∧ (x i).toInt < 100000 := by
  have p := Host.reduce_andi_all _ init hr hu j e i
  simp only [andi, cmpi, broadcastInDim, constantI] at p
  rw [IntOp.andi_eq_one, IntOp.cmpi_sge, IntOp.cmpi_slt] at p
  have hlo : (4294867296#32 : BitVec 32).toInt = -100000 := by decide
  have hhi : (100000#32 : BitVec 32).toInt = 100000 := by decide
  rw [hlo, hhi] at p
  exact p

variable (m : (ℓ : Loc nD τ sig) → Buf (Elt Ideal) ℓ)

/-- A conjunction of two `i1` scalars read at the scalar's index. -/
theorem andi_at {s : Shape} (a b : IVec s 1) (j : s.Idx) : andi a b j = IntOp.andi (a j) (b j) := rfl

/-- THE PRECONDITION DECODED on device `c`: the left-nested conjunction of the fourteen reductions is split once, and the
    six reductions the equivalence leans on are read element by element. -/
theorem decode (h : Cert.Pre_KernelIdeal m) (c : Dev nD) :
    (∀ i : S100000x128.Idx, m ((c.tc : Thread nD τ).loc main_arg0) i ≠ (⊤ : EReal) ∧ m ((c.tc : Thread nD τ).loc main_arg0) i ≠ (⊥ : EReal))
    ∧ (∀ i : S128x128.Idx, m ((c.tc : Thread nD τ).loc main_arg9) i ≠ (⊤ : EReal) ∧ m ((c.tc : Thread nD τ).loc main_arg9) i ≠ (⊥ : EReal))
    ∧ (∀ i : S128x128.Idx, m ((c.tc : Thread nD τ).loc main_arg15) i ≠ (⊤ : EReal) ∧ m ((c.tc : Thread nD τ).loc main_arg15) i ≠ (⊥ : EReal))
    ∧ (∀ e : S500000.Idx, (-100000 : Int) ≤ (m ((c.tc : Thread nD τ).loc main_arg2) e).toInt ∧ (m ((c.tc : Thread nD τ).loc main_arg2) e).toInt < 100000)
    ∧ (∀ e : S500000.Idx, (-100000 : Int) ≤ (m ((c.tc : Thread nD τ).loc main_arg4) e).toInt ∧ (m ((c.tc : Thread nD τ).loc main_arg4) e).toInt < 100000)
    ∧ (∀ e : S500000.Idx, (-100000 : Int) ≤ (m ((c.tc : Thread nD τ).loc main_arg6) e).toInt ∧ (m ((c.tc : Thread nD τ).loc main_arg6) e).toInt < 100000) := by
  have e := congrFun (h c) (fun a => a.elim0)
  dsimp only [Cert.Pre_finite_inputs.fn, Cert.Pre_finite_inputs.fn_part1, Cert.Pre_finite_inputs.fn_part2,
    Cert.Pre_finite_inputs.fn_part3, Cert.Pre_finite_inputs.fn_part4] at e
  simp only [andi_at, IntOp.andi_eq_one] at e
  obtain ⟨⟨⟨⟨⟨⟨⟨⟨⟨⟨⟨⟨⟨h0, -⟩, -⟩, h9⟩, -⟩, -⟩, -⟩, -⟩, -⟩, h15⟩, -⟩, h2⟩, h4⟩, h6⟩ := e
  exact ⟨real_of_all _ _ _ _ _ _ h0, real_of_all _ _ _ _ _ _ h9, real_of_all _ _ _ _ _ _ h15,
    range_of_all _ _ _ _ _ _ h2, range_of_all _ _ _ _ _ _ h4, range_of_all _ _ _ _ _ _ h6⟩

theorem real_x_gene (h : Cert.Pre_KernelIdeal m) (c : Dev nD) (i : S100000x128.Idx) :
    m ((c.tc : Thread nD τ).loc main_arg0) i ≠ (⊤ : EReal) ∧ m ((c.tc : Thread nD τ).loc main_arg0) i ≠ (⊥ : EReal) :=
  (decode m h c).1 i

theorem real_Ws_gg (h : Cert.Pre_KernelIdeal m) (c : Dev nD) (i : S128x128.Idx) :
    m ((c.tc : Thread nD τ).loc main_arg9) i ≠ (⊤ : EReal) ∧ m ((c.tc : Thread nD τ).loc main_arg9) i ≠ (⊥ : EReal) :=
  (decode m h c).2.1 i

theorem real_Ws_tg (h : Cert.Pre_KernelIdeal m) (c : Dev nD) (i : S128x128.Idx) :
    m ((c.tc : Thread nD τ).loc main_arg15) i ≠ (⊤ : EReal) ∧ m ((c.tc : Thread nD τ).loc main_arg15) i ≠ (⊥ : EReal) :=
  (decode m h c).2.2.1 i

theorem src_gg_range (h : Cert.Pre_KernelIdeal m) (c : Dev nD) (e : S500000.Idx) :
    (-100000 : Int) ≤ (m ((c.tc : Thread nD τ).loc main_arg2) e).toInt ∧ (m ((c.tc : Thread nD τ).loc main_arg2) e).toInt < 100000 :=
  (decode m h c).2.2.2.1 e

theorem src_gt_range (h : Cert.Pre_KernelIdeal m) (c : Dev nD) (e : S500000.Idx) :
    (-100000 : Int) ≤ (m ((c.tc : Thread nD τ).loc main_arg4) e).toInt ∧ (m ((c.tc : Thread nD τ).loc main_arg4) e).toInt < 100000 :=
  (decode m h c).2.2.2.2.1 e

theorem src_tg_range (h : Cert.Pre_KernelIdeal m) (c : Dev nD) (e : S500000.Idx) :
    (-100000 : Int) ≤ (m ((c.tc : Thread nD τ).loc main_arg6) e).toInt ∧ (m ((c.tc : Thread nD τ).loc main_arg6) e).toInt < 100000 :=
  (decode m h c).2.2.2.2.2 e

end Cert.KernelIdeal.Domain

end
-- ==== Proof.RefValue.lean ====
/-
  The reference's result arrays, read entry by entry: each destination row's self term, its mean of gathered
  neighbour rows through the neighbour weights, and its bias, summed over the edge types that end in that node kind.
  The neighbour sums and neighbour counts stay the opaque stages they are in the reference's run.
-/
import proofs.«421555_j34385508171930_2_alg».proof.Proof.Gen.ReferenceIdeal.Read
import proofs.«421555_j34385508171930_2_alg».proof.Proof.Forms

noncomputable section

namespace Cert.ReferenceIdeal.RefValue

open Cert.ReferenceIdeal Cert.ReferenceIdeal.Gen Cert.ReferenceIdeal.Read Idealize.ShloMosaic Idealize.ShloMosaic.ValueIdx

/-! ## Where each stage reads its operands, by coordinates

  A matrix product's entry `(r, j)` pairs the left operand's `(r, k)` with the right operand's `(k, j)`; a neighbour count
  stretched along the feature axis is read at the row `r` alone, and a bias stretched along the rows at the column `j` alone. -/

theorem lidx_v19 (r : Fin 100000) (j k : Fin 128) : lidx_main_v19 (ix2 r j) k = ix2 r k :=
  funext fun a => Fin.ext (by match a with | ⟨0, _⟩ => rfl | ⟨1, _⟩ => rfl)
theorem ridx_v19 (r : Fin 100000) (j k : Fin 128) : ridx_main_v19 (ix2 r j) k = ix2 k j :=
  funext fun a => Fin.ext (by match a with | ⟨0, _⟩ => rfl | ⟨1, _⟩ => rfl)
theorem lidx_v20 (r : Fin 100000) (j k : Fin 128) : lidx_main_v20 (ix2 r j) k = ix2 r k :=
  funext fun a => Fin.ext (by match a with | ⟨0, _⟩ => rfl | ⟨1, _⟩ => rfl)
theorem ridx_v20 (r : Fin 100000) (j k : Fin 128) : ridx_main_v20 (ix2 r j) k = ix2 k j :=
  funext fun a => Fin.ext (by match a with | ⟨0, _⟩ => rfl | ⟨1, _⟩ => rfl)
theorem lidx_v69 (r : Fin 100000) (j k : Fin 128) : lidx_main_v69 (ix2 r j) k = ix2 r k :=
  funext fun a => Fin.ext (by match a with | ⟨0, _⟩ => rfl | ⟨1, _⟩ => rfl)
theorem ridx_v69 (r : Fin 100000) (j k : Fin 128) : ridx_main_v69 (ix2 r j) k = ix2 k j :=
  funext fun a => Fin.ext (by match a with | ⟨0, _⟩ => rfl | ⟨1, _⟩ => rfl)
theorem lidx_v70 (r : Fin 100000) (j k : Fin 128) : lidx_main_v70 (ix2 r j) k = ix2 r k :=
  funext fun a => Fin.ext (by match a with | ⟨0, _⟩ => rfl | ⟨1, _⟩ => rfl)
theorem ridx_v70 (r : Fin 100000) (j k : Fin 128) : ridx_main_v70 (ix2 r j) k = ix2 k j :=
  funext fun a => Fin.ext (by match a with | ⟨0, _⟩ => rfl | ⟨1, _⟩ => rfl)
theorem lidx_v44 (r : Fin 100000) (j k : Fin 128) : lidx_main_v44 (ix2 r j) k = ix2 r k :=
  funext fun a => Fin.ext (by match a with | ⟨0, _⟩ => rfl | ⟨1, _⟩ => rfl)
theorem ridx_v44 (r : Fin 100000) (j k : Fin 128) : ridx_main_v44 (ix2 r j) k = ix2 k j :=
  funext fun a => Fin.ext (by match a with | ⟨0, _⟩ => rfl | ⟨1, _⟩ => rfl)
theorem lidx_v45 (r : Fin 100000) (j k : Fin 128) : lidx_main_v45 (ix2 r j) k = ix2 r k :=
  funext fun a => Fin.ext (by match a with | ⟨0, _⟩ => rfl | ⟨1, _⟩ => rfl)
theorem ridx_v45 (r : Fin 100000) (j k : Fin 128) : ridx_main_v45 (ix2 r j) k = ix2 k j :=
  funext fun a => Fin.ext (by match a with | ⟨0, _⟩ => rfl | ⟨1, _⟩ => rfl)
theorem idx_v16_v17 (r : Fin 100000) (k : Fin 128) : idx_main_v16 (idx_main_v17 (ix2 r k)) = ix1 r :=
  funext fun a => Fin.ext (by match a with | ⟨0, _⟩ => rfl)
theorem idx_v66_v67 (r : Fin 100000) (k : Fin 128) : idx_main_v66 (idx_main_v67 (ix2 r k)) = ix1 r :=
  funext fun a => Fin.ext (by match a with | ⟨0, _⟩ => rfl)
theorem idx_v41_v42 (r : Fin 100000) (k : Fin 128) : idx_main_v41 (idx_main_v42 (ix2 r k)) = ix1 r :=
  funext fun a => Fin.ext (by match a with | ⟨0, _⟩ => rfl)
theorem idx_v22_v23 (r : Fin 100000) (j : Fin 128) : idx_main_v22 (idx_main_v23 (ix2 r j)) = ix1 j :=
  funext fun a => Fin.ext (by match a with | ⟨0, _⟩ => rfl)
theorem idx_v72_v73 (r : Fin 100000) (j : Fin 128) : idx_main_v72 (idx_main_v73 (ix2 r j)) = ix1 j :=
  funext fun a => Fin.ext (by match a with | ⟨0, _⟩ => rfl)
theorem idx_v47_v48 (r : Fin 100000) (j : Fin 128) : idx_main_v47 (idx_main_v48 (ix2 r j)) = ix1 j :=
  funext fun a => Fin.ext (by match a with | ⟨0, _⟩ => rfl)

/-! ## The two result stages at an entry -/

/-- A gene row's entry: the gene-to-gene and the trait-to-gene updates, added. -/
theorem gene_at (x0 x1 : (⟨S100000x128, .f32⟩ : BufTy).Contents (Elt Ideal)) (x2 x3 x6 x7 : (⟨S500000, .i32⟩ : BufTy).Contents (Elt Ideal))
    (x8 x9 : (⟨S128x128, .f32⟩ : BufTy).Contents (Elt Ideal)) (x10 : (⟨S128, .f32⟩ : BufTy).Contents (Elt Ideal))
    (x14 x15 : (⟨S128x128, .f32⟩ : BufTy).Contents (Elt Ideal)) (x16 : (⟨S128, .f32⟩ : BufTy).Contents (Elt Ideal))
    (r : Fin 100000) (j : Fin 128) :
    val_main_v75 (F := Ideal) x0 x1 x2 x3 x6 x7 x8 x9 x10 x14 x15 x16 (ix2 r j)
      = Cert.Sage.twoAt (fun k => x0 (ix2 r k))
          (fun k => Cert.Sage.meanAt (val_main_v9 (F := Ideal) x0 x2 x3 (ix2 r k)) (val_main_v13 (F := Ideal) x3 (ix1 r)))
          (fun k => Cert.Sage.meanAt (val_main_v59 (F := Ideal) x1 x6 x7 (ix2 r k)) (val_main_v63 (F := Ideal) x7 (ix1 r)))
          (fun k => x9 (ix2 k j)) (fun k => x8 (ix2 k j)) (fun k => x15 (ix2 k j)) (fun k => x14 (ix2 k j))
          (x10 (ix1 j)) (x16 (ix1 j)) := by
  -- the sum of the two updates; each update is (self product + neighbour product) + bias
  rw [val_main_v75_apply, val_main_v24_apply, val_main_v74_apply, val_main_v21_apply, val_main_v71_apply,
    val_main_v19_apply, val_main_v20_apply, val_main_v69_apply, val_main_v70_apply,
    val_main_v23_apply, val_main_v22_apply, val_main_v73_apply, val_main_v72_apply]
  -- under each product's sum: the neighbour sum over the neighbour count floored at one, read at row `r`
  simp only [val_main_v18_apply, val_main_v17_apply, val_main_v16_apply, val_main_v15_apply, val_main_v14_apply,
    val_main_cst_3_apply, val_main_v68_apply, val_main_v67_apply, val_main_v66_apply, val_main_v65_apply,
    val_main_v64_apply, val_main_cst_15_apply, lidx_v19, ridx_v19, lidx_v20, ridx_v20, lidx_v69, ridx_v69,
    lidx_v70, ridx_v70, idx_v16_v17, idx_v66_v67, idx_v22_v23, idx_v72_v73]
  unfold Cert.Sage.twoAt Cert.Sage.convAt Cert.Sage.meanAt Cert.Sage.one
  simp only [Ideal.addf_def, Ideal.hostDivf_def, Ideal.maximumf_def, Ideal.ofBits_def]

/-- A trait row's entry: the gene-to-trait update. -/
theorem trait_at (x0 x1 : (⟨S100000x128, .f32⟩ : BufTy).Contents (Elt Ideal)) (x4 x5 : (⟨S500000, .i32⟩ : BufTy).Contents (Elt Ideal))
    (x11 x12 : (⟨S128x128, .f32⟩ : BufTy).Contents (Elt Ideal)) (x13 : (⟨S128, .f32⟩ : BufTy).Contents (Elt Ideal))
    (r : Fin 100000) (j : Fin 128) :
    val_main_v49 (F := Ideal) x0 x1 x4 x5 x11 x12 x13 (ix2 r j)
      = Cert.Sage.convAt (fun k => x1 (ix2 r k))
          (fun k => Cert.Sage.meanAt (val_main_v34 (F := Ideal) x0 x4 x5 (ix2 r k)) (val_main_v38 (F := Ideal) x5 (ix1 r)))
          (fun k => x12 (ix2 k j)) (fun k => x11 (ix2 k j)) (x13 (ix1 j)) := by
  -- (self product + neighbour product) + bias
  rw [val_main_v49_apply, val_main_v46_apply, val_main_v44_apply, val_main_v45_apply,
    val_main_v48_apply, val_main_v47_apply]
  simp only [val_main_v43_apply, val_main_v42_apply, val_main_v41_apply, val_main_v40_apply, val_main_v39_apply,
    val_main_cst_9_apply, lidx_v44, ridx_v44, lidx_v45, ridx_v45, idx_v41_v42, idx_v47_v48]
  unfold Cert.Sage.convAt Cert.Sage.meanAt Cert.Sage.one
  simp only [Ideal.addf_def, Ideal.hostDivf_def, Ideal.maximumf_def, Ideal.ofBits_def]

end Cert.ReferenceIdeal.RefValue

end
-- ==== Proof.Bridge.lean ====
/-
  The two result arrays of the tiled program are the reference's, entry by entry.

  Row `r`, column `j` of the gene result is what the first tiled pass writes there: the fused update of row `r` of its
  input arrays. Those arrays are the gene features, the two neighbour sums and counts, the summed self weights, the two
  neighbour weights and the summed bias; the sums and counts are the same scatter-adds of gathered rows as the reference's
  (the gather unmasked, for source indices in range), the narrowing of the weights is the identity, and the two reshapes
  only relabel an entry. What is left is the one algebraic step, a row distributed over the sum of two weight columns,
  for which the row and the two columns are real numbers. The trait result needs no such step.
-/
import proofs.«421555_j34385508171930_2_alg».proof.Proof.KernelRun
import proofs.«421555_j34385508171930_2_alg».proof.Proof.HostSide
import proofs.«421555_j34385508171930_2_alg».proof.Proof.GeneBlock
import proofs.«421555_j34385508171930_2_alg».proof.Proof.TraitBlock
import proofs.«421555_j34385508171930_2_alg».proof.Proof.Domain
import proofs.«421555_j34385508171930_2_alg».proof.Proof.RefValue
import proofs.«421555_j34385508171930_2_alg».proof.Proof.Forms
import Idealize.ShloMosaic.Lib.ValueLayout
import Idealize.ShloMosaic.Lib.Pipeline.Value

set_option maxRecDepth 16384

noncomputable section

namespace Cert.Bridge

open Cert.KernelIdeal Cert.KernelIdeal.Gen Idealize.ShloMosaic Idealize.ShloMosaic.TcCoe Idealize.ShloMosaic.ValueIdx Idealize.SL.Sem
open Cert.KernelIdeal.Host (Rows Ends colOf takeRows sumInto countInto)

/-- An `[a]` array cast to `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The shared chain: gathered source rows added into, and counted per, destination row -/

theorem sum_eq_gg (x : Rows) (s d : Ends) (h : ∀ e, (-100000 : Int) ≤ (s e).toInt ∧ (s e).toInt < 100000) :
    sumInto d (takeRows x s) = Cert.ReferenceIdeal.Read.val_main_v9 (F := Ideal) x s d := by
  rw [Host.takeRows_eq x s h]; rfl

theorem sum_eq_gt (x : Rows) (s d : Ends) (h : ∀ e, (-100000 : Int) ≤ (s e).toInt ∧ (s e).toInt < 100000) :
    sumInto d (takeRows x s) = Cert.ReferenceIdeal.Read.val_main_v34 (F := Ideal) x s d := by
  rw [Host.takeRows_eq x s h]; rfl

theorem sum_eq_tg (x : Rows) (s d : Ends) (h : ∀ e, (-100000 : Int) ≤ (s e).toInt ∧ (s e).toInt < 100000) :
    sumInto d (takeRows x s) = Cert.ReferenceIdeal.Read.val_main_v59 (F := Ideal) x s d := by
  rw [Host.takeRows_eq x s h]; rfl

theorem cnt_eq_gg (d : Ends) : countInto d = Cert.ReferenceIdeal.Read.val_main_v13 (F := Ideal) d := rfl
theorem cnt_eq_gt (d : Ends) : countInto d = Cert.ReferenceIdeal.Read.val_main_v38 (F := Ideal) d := rfl
theorem cnt_eq_tg (d : Ends) : countInto d = Cert.ReferenceIdeal.Read.val_main_v63 (F := Ideal) d := rfl

variable (m : (ℓ : Loc nD τ sig) → Buf (Elt Ideal) ℓ) (ρ : Dev nD → PrngReg)

/-! ## The gene result -/

theorem gene_entry (h : Cert.Pre_KernelIdeal m) (c : Dev nD) (r : Fin 100000) (j : Fin 128) :
    W9 (F := Ideal) m ρ c (Proc.devRef .tc main_v33) (ix2 r j) = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (ix2 r j) := by
  calc W9 (F := Ideal) m ρ c (Proc.devRef .tc main_v33) (ix2 r j)
      = Cert.Sage.fusedArrAt (W6 (F := Ideal) m ρ c (Proc.devRef .tc main_arg0)) (W6 (F := Ideal) m ρ c (Proc.devRef .tc main_v3))
          (W6 (F := Ideal) m ρ c (Proc.devRef .tc main_v8)) (W6 (F := Ideal) m ρ c (Proc.devRef .tc main_v21))
          (W6 (F := Ideal) m ρ c (Proc.devRef .tc main_v26)) (W6 (F := Ideal) m ρ c (Proc.devRef .tc main_v28))
          (W6 (F := Ideal) m ρ c (Proc.devRef .tc main_v29)) (W6 (F := Ideal) m ρ c (Proc.devRef .tc main_v30))
          (W6 (F := Ideal) m ρ c (Proc.devRef .tc main_v32)) r j := by
        rw [Host.gene_result m ρ c]
        exact Cert.KernelIdeal.Blocks.gene_block (V6 m ρ) c r j
    _ = Cert.Sage.fusedAt (fun k => (m ((c : Thread nD τ).loc main_arg0)) (ix2 r k))
          (fun k => Cert.Sage.meanAt (Cert.ReferenceIdeal.Read.val_main_v9 (F := Ideal) (m ((c : Thread nD τ).loc main_arg0)) (m ((c : Thread nD τ).loc main_arg2)) (m ((c : Thread nD τ).loc main_arg3)) (ix2 r k)) (Cert.ReferenceIdeal.Read.val_main_v13 (F := Ideal) (m ((c : Thread nD τ).loc main_arg3)) (ix1 r)))
          (fun k => Cert.Sage.meanAt (Cert.ReferenceIdeal.Read.val_main_v59 (F := Ideal) (m ((c : Thread nD τ).loc main_arg1)) (m ((c : Thread nD τ).loc main_arg6)) (m ((c : Thread nD τ).loc main_arg7)) (ix2 r k)) (Cert.ReferenceIdeal.Read.val_main_v63 (F := Ideal) (m ((c : Thread nD τ).loc main_arg7)) (ix1 r)))
          (fun k => (m ((c : Thread nD τ).loc main_arg9)) (ix2 k j)) (fun k => (m ((c : Thread nD τ).loc main_arg8)) (ix2 k j)) (fun k => (m ((c : Thread nD τ).loc main_arg15)) (ix2 k j)) (fun k => (m ((c : Thread nD τ).loc main_arg14)) (ix2 k j)) ((m ((c : Thread nD τ).loc main_arg10)) (ix1 j)) ((m ((c : Thread nD τ).loc main_arg16)) (ix1 j)) := by
        rw [Host.gene_x, Host.gene_sum_gg, Host.gene_cnt_gg, Host.gene_sum_tg, Host.gene_cnt_tg, Host.gene_ws, Host.gene_wn_gg,
          Host.gene_wn_tg, Host.gene_b]
        rw [sum_eq_gg _ _ _ (Cert.KernelIdeal.Domain.src_gg_range m h c), sum_eq_tg _ _ _ (Cert.KernelIdeal.Domain.src_tg_range m h c),
          cnt_eq_gg (m ((c : Thread nD τ).loc main_arg3)), cnt_eq_tg (m ((c : Thread nD τ).loc main_arg7))]
        unfold Cert.Sage.fusedArrAt Cert.Sage.fusedAt
        rw [shapeCast_a_a1_apply, shapeCast_a_a1_apply, shapeCast_a_1a_apply]
        rfl
    _ = Cert.Sage.twoAt (fun k => (m ((c : Thread nD τ).loc main_arg0)) (ix2 r k))
          (fun k => Cert.Sage.meanAt (Cert.ReferenceIdeal.Read.val_main_v9 (F := Ideal) (m ((c : Thread nD τ).loc main_arg0)) (m ((c : Thread nD τ).loc main_arg2)) (m ((c : Thread nD τ).loc main_arg3)) (ix2 r k)) (Cert.ReferenceIdeal.Read.val_main_v13 (F := Ideal) (m ((c : Thread nD τ).loc main_arg3)) (ix1 r)))
          (fun k => Cert.Sage.meanAt (Cert.ReferenceIdeal.Read.val_main_v59 (F := Ideal) (m ((c : Thread nD τ).loc main_arg1)) (m ((c : Thread nD τ).loc main_arg6)) (m ((c : Thread nD τ).loc main_arg7)) (ix2 r k)) (Cert.ReferenceIdeal.Read.val_main_v63 (F := Ideal) (m ((c : Thread nD τ).loc main_arg7)) (ix1 r)))
          (fun k => (m ((c : Thread nD τ).loc main_arg9)) (ix2 k j)) (fun k => (m ((c : Thread nD τ).loc main_arg8)) (ix2 k j)) (fun k => (m ((c : Thread nD τ).loc main_arg15)) (ix2 k j)) (fun k => (m ((c : Thread nD τ).loc main_arg14)) (ix2 k j)) ((m ((c : Thread nD τ).loc main_arg10)) (ix1 j)) ((m ((c : Thread nD τ).loc main_arg16)) (ix1 j)) :=
        Cert.Sage.fusedAt_eq_twoAt _ _ _ _ _ _ _ _ _ (fun k => Cert.KernelIdeal.Domain.real_x_gene m h c (ix2 r k))
          (fun k => Cert.KernelIdeal.Domain.real_Ws_gg m h c (ix2 k j)) (fun k => Cert.KernelIdeal.Domain.real_Ws_tg m h c (ix2 k j))
    _ = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (ix2 r j) :=
        (Cert.ReferenceIdeal.RefValue.gene_at _ _ _ _ _ _ _ _ _ _ _ _ r j).symm

/-! ## The trait result -/

theorem trait_entry (h : Cert.Pre_KernelIdeal m) (c : Dev nD) (r : Fin 100000) (j : Fin 128) :
    W9 (F := Ideal) m ρ c (Proc.devRef .tc main_v37) (ix2 r j) = Cert.ReferenceIdeal.Read.val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg12)) (m ((c : Thread nD τ).loc main_arg13)) (ix2 r j) := by
  calc W9 (F := Ideal) m ρ c (Proc.devRef .tc main_v37) (ix2 r j)
      = Cert.Sage.convArrAt (W8 (F := Ideal) m ρ c (Proc.devRef .tc main_arg1)) (W8 (F := Ideal) m ρ c (Proc.devRef .tc main_v12))
          (W8 (F := Ideal) m ρ c (Proc.devRef .tc main_v17)) (W8 (F := Ideal) m ρ c (Proc.devRef .tc main_v34))
          (W8 (F := Ideal) m ρ c (Proc.devRef .tc main_v35)) (W8 (F := Ideal) m ρ c (Proc.devRef .tc main_v36)) r j := by
        rw [Host.trait_result m ρ c]
        exact Cert.KernelIdeal.Blocks.trait_block (V8 m ρ) c r j
    _ = Cert.Sage.convAt (fun k => (m ((c : Thread nD τ).loc main_arg1)) (ix2 r k))
          (fun k => Cert.Sage.meanAt (Cert.ReferenceIdeal.Read.val_main_v34 (F := Ideal) (m ((c : Thread nD τ).loc main_arg0)) (m ((c : Thread nD τ).loc main_arg4)) (m ((c : Thread nD τ).loc main_arg5)) (ix2 r k)) (Cert.ReferenceIdeal.Read.val_main_v38 (F := Ideal) (m ((c : Thread nD τ).loc main_arg5)) (ix1 r)))
          (fun k => (m ((c : Thread nD τ).loc main_arg12)) (ix2 k j)) (fun k => (m ((c : Thread nD τ).loc main_arg11)) (ix2 k j)) ((m ((c : Thread nD τ).loc main_arg13)) (ix1 j)) := by
        rw [Host.trait_x, Host.trait_sum_gt, Host.trait_cnt_gt, Host.trait_ws, Host.trait_wn, Host.trait_b]
        rw [sum_eq_gt _ _ _ (Cert.KernelIdeal.Domain.src_gt_range m h c), cnt_eq_gt (m ((c : Thread nD τ).loc main_arg5))]
        unfold Cert.Sage.convArrAt
        rw [shapeCast_a_a1_apply, shapeCast_a_1a_apply]
        rfl
    _ = Cert.ReferenceIdeal.Read.val_main_v49 (F := Ideal) (m ((c : Thread nD τ).loc main_arg0)) (m ((c : Thread nD τ).loc main_arg1)) (m ((c : Thread nD τ).loc main_arg4)) (m ((c : Thread nD τ).loc main_arg5)) (m ((c : Thread nD τ).loc main_arg11)) (m ((c : Thread nD τ).loc main_arg12)) (m ((c : Thread nD τ).loc main_arg13)) (ix2 r j) :=
        (Cert.ReferenceIdeal.RefValue.trait_at _ _ _ _ _ _ _ r j).symm

end Cert.Bridge

end
-- ==== Proof.lean ====
/-
  One graph-layer update over two node kinds (genes, traits) and three edge types (gene to gene, gene to trait,
  trait to gene), each edge type a mean-aggregation layer: a destination row receives its own features through the self
  weights, the mean of its neighbours' features through the neighbour weights, and a bias; the gene rows receive the sum
  of the two updates that end in genes.

  The tiled program forms the neighbour sums and counts on the host exactly as the reference does, and leaves the mean,
  the three matrix products and the bias to two tiled passes over the rows; for the gene rows it adds the two self-weight
  matrices and the two biases first and applies the row once. On the extended reals the two programs agree entry by
  entry: a change of float format is the identity, a matrix product is a finite sum, addition is commutative and
  associative, and the one remaining step — a row distributed over the sum of two weight columns — holds because the
  features and the weights are real numbers. The source indices are taken in [-100000, 100000), where an index counted
  from either end names a row of the 100000-row tables: there the program's masked gather is the reference's gather.

  The three frames are the programs' runs with the results dropped; the idealization rewrote no operation.
-/
import proofs.«421555_j34385508171930_2_alg».proof.Defs
import proofs.«421555_j34385508171930_2_alg».proof.Proof.Gen.Kernel
import proofs.«421555_j34385508171930_2_alg».proof.Proof.Gen.Kernel.Frame
import proofs.«421555_j34385508171930_2_alg».proof.Proof.Gen.KernelIdeal
import proofs.«421555_j34385508171930_2_alg».proof.Proof.Gen.KernelIdeal.Frame
import proofs.«421555_j34385508171930_2_alg».proof.Proof.Gen.ReferenceIdeal
import proofs.«421555_j34385508171930_2_alg».proof.Proof.Gen.ReferenceIdeal.Run
import proofs.«421555_j34385508171930_2_alg».proof.Proof.Gen.ReferenceIdeal.Read
import proofs.«421555_j34385508171930_2_alg».proof.Proof.Gen.Pre_finite_inputs
import proofs.«421555_j34385508171930_2_alg».proof.Proof.KernelRun
import proofs.«421555_j34385508171930_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the gene rows at the reference's gene stage and the trait rows at its trait stage, as
    functions of the arguments: the tiled program by its run read entry by entry, the reference by its run. -/
theorem algebraic : Cert.algebraic_KernelIdeal_ReferenceIdeal := by
  intro m ρ m' ρ' hpre hagree
  refine ⟨fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r hr c => ?_) (Cert.KernelIdeal.Results.run_results (F := Ideal) m ρ)
    obtain ⟨h33, h37, hargs⟩ := hr c
    refine ⟨h33.trans (funext fun i => ?_), h37.trans (funext fun i => ?_), hargs⟩
    · rw [ValueIdx.eq_ix2 i]; exact Cert.Bridge.gene_entry m ρ hpre c _ _
    · rw [ValueIdx.eq_ix2 i]; exact Cert.Bridge.trait_entry m ρ hpre c _ _
  · refine (θ_run Cert.ReferenceIdeal.defs _ _).mono (fun r hr c => ?_) (Cert.ReferenceIdeal.Value.run (F := Ideal) m' ρ')
    obtain ⟨h75, h49, hargs⟩ := hr c
    obtain ⟨a0, a1, a2, a3, a4, a5, a6, a7, a8, a9, a10, a11, a12, a13, a14, a15, a16⟩ := hagree c
    refine ⟨h75.trans ?_, h49.trans ?_, hargs⟩
    · rw [a0, a1, a2, a3, a6, a7, a8, a9, a10, a14, a15, a16]
      exact Cert.ReferenceIdeal.Read.val_main_v75_eq _ _ _ _ _ _ _ _ _ _ _ _
    · rw [a0, a1, a4, a5, a11, a12, a13]
      exact Cert.ReferenceIdeal.Read.val_main_v49_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
